-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : IVec S4096x4096 1) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S512x4096 : Shape := ⟨2, ![512, 4096]⟩
abbrev S4096x512 : Shape := ⟨2, ![4096, 512]⟩
abbrev S1x4096 : Shape := ⟨2, ![1, 4096]⟩
abbrev S256x4096 : Shape := ⟨2, ![256, 4096]⟩

abbrev nBuf : Space → Nat
  | .hbm => 8
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .i1⟩
  | .hbm, ⟨3, _⟩ => ⟨S4096, .f32⟩
  | .hbm, ⟨4, _⟩ => ⟨S4096x4096, .i32⟩
  | .hbm, ⟨5, _⟩ => ⟨S4096x4096, .bf16⟩
  | .hbm, ⟨6, _⟩ => ⟨S1x4096, .f32⟩
  | .hbm, ⟨7, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .i32⟩
  | .local _ .vmem, ⟨3, _⟩ => ⟨S512x4096, .i32⟩
  | .local _ .vmem, ⟨4, _⟩ => ⟨S4096x512, .bf16⟩
  | .local _ .vmem, ⟨5, _⟩ => ⟨S4096x512, .bf16⟩
  | .local _ .vmem, ⟨6, _⟩ => ⟨S256x4096, .f32⟩
  | .local _ .vmem, ⟨7, _⟩ => ⟨S256x4096, .f32⟩
  | .local _ .vmem, ⟨8, _⟩ => ⟨S4096x4096, .bf16⟩
  | .local _ .vmem, ⟨9, _⟩ => ⟨S1x4096, .f32⟩
  | .local _ .vmem, ⟨10, _⟩ => ⟨S256x4096, .f32⟩
  | .local _ .vmem, ⟨11, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  natLt_1_32 : 1 < 32
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  transposes_S512x4096_p1_0_S4096x512 : S512x4096.Transposes [1, 0] S4096x512
  inb_S4096x512_S4096x512_0_0 : ∀ a, (![0, 0] : Fin 2 → Nat) a + S4096x512.size a ≤ S4096x512.size a
  h_S4096x512 : 0 < S4096x512.numel
  packedbf16_S4096x512_S4096x512_0_0 : (Rect.unit (s := S4096x512) ![0, 0] S4096x512.size inb_S4096x512_S4096x512_0_0).PackedRows (EltTy.packing .bf16)
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S256x4096_S4096x4096_S256x4096_1_0_0_1_n_n_wf : DotDims.WF S256x4096 S4096x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .i32 = 32 ∨ (Rect.block (s := S4096x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x4096.size a
  hwx0_2 : ∀ i : grid0.Coords, EltTy.bits .bf16 = 32 ∨ (Rect.block (s := S4096x4096) S4096x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S8192x4096.size a
  hwx1_3 : ∀ i : grid1.Coords, EltTy.bits .f32 = 32 ∨ (Rect.block (s := S8192x4096) S256x4096.size (cc1_transform_3 i) (hinb1_3 i)).WholeWords (EltTy.packing .f32)

variable [Facts₀]

def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .i1⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The mathematics both programs compute, stated once over the argument arrays.

  A linear layer whose weight is masked entry by entry: for a token row `t` and an output feature `o`

      y[t, o] = (∑ k, X[t, k] · (W[o, k] · m[o, k])) + b[o],        m[o, k] ∈ {0, 1},

  the mask bit read as the number 0 or 1. The one algebraic fact needed between the two programs is that
  multiplying a weight by its mask bit is the same as choosing between the weight and zero by that bit
  (`keep_eq_select`): on the extended reals `w · 1 = w` and `w · 0 = 0` hold for every `w`, the infinities included,
  so no finiteness of the inputs is used.
-/
import Idealize.ShloMosaic.PureOps.Ideal
import Idealize.ShloMosaic.PureOps.Ideal.Laws
import Idealize.ShloMosaic.Lib.ValueIdx

noncomputable section

namespace Cert.MaskedLinear

open Idealize.ShloMosaic

/-- The activations' shape, tokens × input features (also the result's: tokens × output features). -/
abbrev SX : Shape := ⟨2, ![8192, 4096]⟩
/-- The weight's and the mask's shape, output features × input features. -/
abbrev SW : Shape := ⟨2, ![4096, 4096]⟩
/-- The bias's shape. -/
abbrev SB : Shape := ⟨1, ![4096]⟩

/-- The activation entry `(t, k)` that result entry `i = (t, o)` reads at contraction position `k`. -/
abbrev xAt (i : SX.Idx) (k : Fin 4096) : SX.Idx := fun a => match a with
  | ⟨0, _⟩ => ⟨(i 0).val, (i 0).isLt⟩
  | ⟨1, _⟩ => ⟨k.val, k.isLt⟩
/-- The weight (and mask) entry `(o, k)` that result entry `i = (t, o)` reads at contraction position `k`. -/
abbrev wAt (i : SX.Idx) (k : Fin 4096) : SW.Idx := fun a => match a with
  | ⟨0, _⟩ => ⟨(i 1).val, (i 1).isLt⟩
  | ⟨1, _⟩ => ⟨k.val, k.isLt⟩
/-- The bias entry `o` that result entry `i = (t, o)` reads. -/
abbrev bAt (i : SX.Idx) : SB.Idx := fun a => match a with
  | ⟨0, _⟩ => ⟨(i 1).val, (i 1).isLt⟩

/-- A weight kept or dropped by its mask bit: the weight times the bit read as a number. -/
def keep (bit : BitVec 1) (w : EReal) : EReal := w * ((bit.toNat : ℝ) : EReal)

/-- The masked linear layer, entry by entry. -/
def maskedLinear (X : SX.Idx → EReal) (W : SW.Idx → EReal) (M : SW.Idx → BitVec 1) (b : SB.Idx → EReal) : SX.Idx → EReal :=
  fun i => (∑ k : Fin 4096, X (xAt i k) * keep (M (wAt i k)) (W (wAt i k))) + b (bAt i)

/-- Multiplying by the mask bit is choosing by it: the bit widened to a word is nonzero exactly when it is set, and
    `w · 1 = w`, `w · 0 = 0` on every extended real. -/
theorem keep_eq_select (bit : BitVec 1) (w : EReal) :
    keep bit w = Scalar.select (IntOp.cmpi .ne (bit.setWidth 32) 0#32) w (Ideal.ofBits .f32 0x00000000#32) := by
  unfold keep
  rcases BitVec.eq_zero_or_eq_one bit with h | h
  · subst h
    rw [show IntOp.cmpi .ne ((0#1 : BitVec 1).setWidth 32) 0#32 = 0#1 from by decide, ValueIdx.select_zero, Ideal.ofBits_zero_f32]
    simp
  · subst h
    rw [show IntOp.cmpi .ne ((1#1 : BitVec 1).setWidth 32) 0#32 = 1#1 from by decide, ValueIdx.select_one]
    simp

end Cert.MaskedLinear

end
-- ==== Proof.RefSide.lean ====
/-
  The reference's result, read one operation at a time, is the masked linear layer of its arguments: its `dot_general`
  contracts the activations' second axis with the masked weight's second axis, so entry `(t, o)` sums
  `X[t, k] · (W[o, k] · m[o, k])` over `k`; the bias is broadcast along the token axis and added.
-/
import proofs.«401418_j21466246545932_3_alg».proof.Proof.Gen.ReferenceIdeal.Run
import proofs.«401418_j21466246545932_3_alg».proof.Proof.Gen.ReferenceIdeal.Read
import proofs.«401418_j21466246545932_3_alg».proof.Proof.Spec

noncomputable section

namespace Cert.ReferenceIdeal.RefValue

open Cert.ReferenceIdeal Cert.ReferenceIdeal.Read Cert.MaskedLinear Idealize.ShloMosaic

/-- The left operand's entry the product reads is the activation entry `(t, k)`. -/
theorem lidx_eq (i : S8192x4096.Idx) (k : Fin 4096) : lidx_main_v2 i k = xAt i k :=
  funext fun a => Fin.ext (by match a with | ⟨0, _⟩ => rfl | ⟨1, _⟩ => rfl)
/-- The right operand's entry the product reads is the weight entry `(o, k)`. -/
theorem ridx_eq (i : S8192x4096.Idx) (k : Fin 4096) : ridx_main_v2 i k = wAt i k :=
  funext fun a => Fin.ext (by match a with | ⟨0, _⟩ => rfl | ⟨1, _⟩ => rfl)
/-- Through the two broadcasts the bias is read at the output feature `o`. -/
theorem bidx_eq (i : S8192x4096.Idx) : idx_main_v3 (idx_main_v4 i) = bAt i :=
  funext fun a => Fin.ext (by match a with | ⟨0, _⟩ => rfl)

/-- The reference's result is the masked linear layer of its four arguments. -/
theorem reference_eq (x0 : (⟨S8192x4096, .f32⟩ : BufTy).Contents (Elt Ideal)) (x1 : (⟨S4096x4096, .f32⟩ : BufTy).Contents (Elt Ideal))
    (x2 : (⟨S4096x4096, .i1⟩ : BufTy).Contents (Elt Ideal)) (x3 : (⟨S4096, .f32⟩ : BufTy).Contents (Elt Ideal)) :
    val_main_v5 (F := Ideal) x0 x1 x2 x3 = maskedLinear x0 x1 x2 x3 := by
  funext i
  rw [val_main_v5_apply, val_main_v2_apply, val_main_v4_apply, val_main_v3_apply]
  simp only [val_main_v1_apply, val_main_v0_apply, lidx_eq, ridx_eq, bidx_eq]
  rfl

end Cert.ReferenceIdeal.RefValue

end
-- ==== Proof.Prepass.lean ====
/-
  The first region: the weight masked once and laid out transposed.

  Point `t` of its 8 points takes rows `512 t … 512 t + 511` of the weight (output features) and of the mask word array,
  keeps a weight where its mask word is nonzero and puts zero elsewhere, changes the float format (the identity on the
  extended reals) and transposes, writing the `4096 × 512` block of columns `512 t … 512 t + 511` of the result. Those
  blocks tile the result, so after the region the result array holds, at `(k, o)`, the weight `(o, k)` if the mask word
  `(o, k)` is nonzero and zero otherwise — whatever the arrays hold when the region is entered.
-/
import proofs.«401418_j21466246545932_3_alg».proof.Proof.Gen.KernelIdeal.Frame
import Idealize.ShloMosaic.Lib.Pipeline.Value
import Idealize.ShloMosaic.Lib.ValueIdx

set_option maxRecDepth 16384

noncomputable section

namespace Cert.KernelIdeal.Prepass

open Cert.KernelIdeal Cert.KernelIdeal.Gen
open Idealize.ShloMosaic Idealize.ShloMosaic.TcCoe Idealize.SL.Sem Idealize.ShloMosaic.ValueIdx

/-- The transposed position: `(k, o) ↦ (o, k)`. -/
abbrev tr (j : S4096x4096.Idx) : S4096x4096.Idx := fun a => match a with
  | ⟨0, _⟩ => ⟨(j 1).val, (j 1).isLt⟩
  | ⟨1, _⟩ => ⟨(j 0).val, (j 0).isLt⟩

/-- The masked weight, transposed: at `(k, o)` the weight `(o, k)` where the mask word `(o, k)` is nonzero, zero elsewhere. -/
def maskedT (W : Vec Ideal S4096x4096 .f32) (Mw : Vec Ideal S4096x4096 .i32) : Vec Ideal S4096x4096 .bf16 :=
  fun j => Scalar.select (IntOp.cmpi .ne (Mw (tr j)) 0#32) (W (tr j)) (Ideal.ofBits .f32 0x00000000#32)

/-- The body's stored value at `(k, o)` of its block: the choice by the mask word at `(o, k)` of the loaded blocks. -/
theorem pay_apply (x0 : Vec Ideal S512x4096 .f32) (x1 : Vec Ideal S512x4096 .i32) (k : Fin 4096) (o : Fin 512) :
    k0_pay1 (F := Ideal) x0 x1 (ix2 k o)
      = Scalar.select (IntOp.cmpi .ne (x1 (ix2 o k)) 0#32) (x0 (ix2 o k)) (Ideal.ofBits .f32 0x00000000#32) := by
  unfold k0_pay1
  refine (transpose_apply _ _ transposes_S512x4096_p1_0_S4096x512 (ix2 k o) (ix2 o k) ?_).trans ?_
  · intro b
    match b with
    | ⟨0, _⟩ => rfl
    | ⟨1, _⟩ => rfl
  · rfl

theorem hz : (![0, 0] : Fin 2 → Nat) = fun _ => 0 := funext fun a => by fin_cases a <;> rfl

/-- The printed index maps over the grid: the two inputs' blocks move down the rows with the point, the output's along
    the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

variable (V : (c : Dev nD) → (b : Ref sig .tc) → Buf (Elt Ideal) ((c : Thread nD τ).loc b))

/-- What point `t` writes back is block `t` of the masked, transposed weight of the arrays the region finds. -/
theorem flushed_eq (c : Dev nD) (t : Fin cfg0.N) :
    (dat0 V c).flushed 2 t = ((cfg0.win 2).blk t).view.read (Elt Ideal) (maskedT (V c main_arg1) (V c main_v0)) := by
  show (cfg0.win 2).cut (grid0.coords t) ((dat0 V c).after 2 t) = _
  rw [after0_2]
  unfold out0_2
  rw [View.canon_unit_zero hz]
  simp only [View.ld_unit_zero (S := S512x4096) hz]
  obtain ⟨e0, e1, e2, e3, e4, e5⟩ := idx_facts t
  funext j
  obtain ⟨k, o, rfl⟩ : ∃ (k : Fin 4096) (o : Fin 512), j = ix2 k o := ⟨j 0, j 1, eq_ix2 j⟩
  refine (pay_apply (iblk0 V c 0 t) (iblk0 V c 1 t) k o).trans ?_
  have h0 : ((cfg0.win 0).blk t).view.emb (ix2 o k) = tr (((cfg0.win 2).blk t).view.emb (ix2 k o)) := by
    funext a; apply Fin.ext
    match a with
    | ⟨0, _⟩ => show win0_0.index t (0 : Fin 2) * 512 + 1 * o.val = win0_2.index t (1 : Fin 2) * 512 + 1 * o.val; omega
    | ⟨1, _⟩ => show win0_0.index t (1 : Fin 2) * 4096 + 1 * k.val = win0_2.index t (0 : Fin 2) * 4096 + 1 * k.val; omega
  have h1 : ((cfg0.win 1).blk t).view.emb (ix2 o k) = tr (((cfg0.win 2).blk t).view.emb (ix2 k o)) := by
    funext a; apply Fin.ext
    match a with
    | ⟨0, _⟩ => show win0_1.index t (0 : Fin 2) * 512 + 1 * o.val = win0_2.index t (1 : Fin 2) * 512 + 1 * o.val; omega
    | ⟨1, _⟩ => show win0_1.index t (1 : Fin 2) * 4096 + 1 * k.val = win0_2.index t (0 : Fin 2) * 4096 + 1 * k.val; omega
  show Scalar.select (IntOp.cmpi .ne (V c main_v0 (((cfg0.win 1).blk t).view.emb (ix2 o k))) 0#32)
      (V c main_arg1 (((cfg0.win 0).blk t).view.emb (ix2 o k))) (Ideal.ofBits .f32 0x00000000#32)
    = Scalar.select (IntOp.cmpi .ne (V c main_v0 (tr (((cfg0.win 2).blk t).view.emb (ix2 k o)))) 0#32)
      (V c main_arg1 (tr (((cfg0.win 2).blk t).view.emb (ix2 k o)))) (Ideal.ofBits .f32 0x00000000#32)
  rw [h0, h1]

/-- An index of the result is in point `t`'s block iff each coordinate is in the block's range on its axis. -/
theorem mem_blk (t : Fin cfg0.N) (i : S4096x4096.Idx) :
    i ∈ ((cfg0.win 2).blk t).view.set ↔ ∀ a : Fin 2, win0_2.index t a * S4096x512.size a ≤ (i a).val ∧ (i a).val < win0_2.index t a * S4096x512.size a + S4096x512.size a := by
  show i ∈ ((View.whole main_v1).slice (win0_2.rect t)).set ↔ _
  rw [View.set_slice_whole, Rect.mem_set_unit]
  exact Iff.rfl

/-- Column `o` of the result lies in the block of point `o / 512`. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  have hN : (i 1).val / 512 < cfg0.N := by rw [show cfg0.N = 8 from N_0]; omega
  obtain ⟨-, -, -, -, e4, e5⟩ := idx_facts ⟨(i 1).val / 512, hN⟩
  have e5' : win0_2.index ⟨(i 1).val / 512, hN⟩ (1 : Fin 2) = (i 1).val / 512 := e5
  refine ⟨⟨(i 1).val / 512, hN⟩, flush0_2 _, ?_⟩
  rw [mem_blk]
  intro a
  match a with
  | ⟨0, _⟩ => show win0_2.index _ (0 : Fin 2) * 4096 ≤ (i 0).val ∧ (i 0).val < win0_2.index _ (0 : Fin 2) * 4096 + 4096; omega
  | ⟨1, _⟩ => show win0_2.index _ (1 : Fin 2) * 512 ≤ (i 1).val ∧ (i 1).val < win0_2.index _ (1 : Fin 2) * 512 + 512; omega

/-- After the region its result array is the masked, transposed weight of the arrays the region found. -/
theorem final (c : Dev nD) : (dat0 V c).arrAt 2 cfg0.N = maskedT (V c main_arg1) (V c main_v0) :=
  (dat0 V c).arrAt_eq_of_cover 2 _ (fun t _ => flushed_eq V c t) cover

end Cert.KernelIdeal.Prepass

end
-- ==== Proof.Linear.lean ====
/-
  The second region: the matrix product with the resident, already transposed weight, plus the bias row.

  Point `t` of its 32 points takes rows `256 t … 256 t + 255` of the activations, the whole `4096 × 4096` weight array
  (laid out input feature × output feature) and the whole `1 × 4096` bias row, and writes rows `256 t … 256 t + 255` of
  the result: at row `r`, column `o`, the sum over `k` of activation `(r, k)` times weight `(k, o)` (the product into
  a zero accumulator is that sum on the extended reals; the change of float format is the identity) plus bias `(0, o)`.
  The row blocks tile the result, so after the region the result array is that function of the arrays the region found.
-/
import proofs.«401418_j21466246545932_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Linear

open Cert.KernelIdeal Cert.KernelIdeal.Gen
open Idealize.ShloMosaic Idealize.ShloMosaic.TcCoe Idealize.SL.Sem Idealize.ShloMosaic.ValueIdx

/-- The activation entry `(r, k)` that result entry `i = (r, o)` reads at contraction position `k`. -/
abbrev xAt (i : S8192x4096.Idx) (k : Fin 4096) : S8192x4096.Idx := fun a => match a with
  | ⟨0, _⟩ => ⟨(i 0).val, (i 0).isLt⟩
  | ⟨1, _⟩ => ⟨k.val, k.isLt⟩
/-- The transposed-weight entry `(k, o)` that result entry `i = (r, o)` reads at contraction position `k`. -/
abbrev wtAt (i : S8192x4096.Idx) (k : Fin 4096) : S4096x4096.Idx := fun a => match a with
  | ⟨0, _⟩ => ⟨k.val, k.isLt⟩
  | ⟨1, _⟩ => ⟨(i 1).val, (i 1).isLt⟩
/-- The bias-row entry `(0, o)` that result entry `i = (r, o)` reads. -/
abbrev brAt (i : S8192x4096.Idx) : S1x4096.Idx := fun a => match a with
  | ⟨0, _⟩ => ⟨0, Nat.one_pos⟩
  | ⟨1, _⟩ => ⟨(i 1).val, (i 1).isLt⟩

/-- The product with a weight laid out input feature × output feature, plus a bias row. -/
def linearT (X : Vec Ideal S8192x4096 .f32) (Wt : Vec Ideal S4096x4096 .bf16) (B : Vec Ideal S1x4096 .f32) : Vec Ideal S8192x4096 .f32 :=
  fun i => (∑ k : Fin 4096, X (xAt i k) * Wt (wtAt i k)) + B (brAt i)

/-! ## The body's product read at an index: which operand entries the contraction position names -/

theorem lhs_mm_0 (i : S256x4096.Idx) (q : dot_S256x4096_S4096x4096_S256x4096_1_0_0_1_n_n.contr.Idx) :
    (dot_S256x4096_S4096x4096_S256x4096_1_0_0_1_n_n.lhsIdx i q 0).val = (i 0).val := by
  unfold DotDims.lhsIdx
  rw [dif_neg (show ¬(0 : Fin S256x4096.rank) ∈ dot_S256x4096_S4096x4096_S256x4096_1_0_0_1_n_n.lhsBatch by decide), dif_pos (show (0 : Fin S256x4096.rank) ∈ dot_S256x4096_S4096x4096_S256x4096_1_0_0_1_n_n.lhsNonContracting by decide)]
  rfl
theorem lhs_mm_1 (i : S256x4096.Idx) (q : dot_S256x4096_S4096x4096_S256x4096_1_0_0_1_n_n.contr.Idx) :
    (dot_S256x4096_S4096x4096_S256x4096_1_0_0_1_n_n.lhsIdx i q 1).val = (q ⟨0, by decide⟩).val :=
  dot_S256x4096_S4096x4096_S256x4096_1_0_0_1_n_n.lhsIdx_val_of_single rfl i q
theorem rhs_mm_0 (i : S256x4096.Idx) (q : dot_S256x4096_S4096x4096_S256x4096_1_0_0_1_n_n.contr.Idx) :
    (dot_S256x4096_S4096x4096_S256x4096_1_0_0_1_n_n.rhsIdx i q 0).val = (q ⟨0, by decide⟩).val :=
  dot_S256x4096_S4096x4096_S256x4096_1_0_0_1_n_n.rhsIdx_val_of_single rfl i q
theorem rhs_mm_1 (i : S256x4096.Idx) (q : dot_S256x4096_S4096x4096_S256x4096_1_0_0_1_n_n.contr.Idx) :
    (dot_S256x4096_S4096x4096_S256x4096_1_0_0_1_n_n.rhsIdx i q 1).val = (i 1).val := by
  unfold DotDims.rhsIdx
  rw [dif_neg (show ¬(1 : Fin S4096x4096.rank) ∈ dot_S256x4096_S4096x4096_S256x4096_1_0_0_1_n_n.rhsBatch by decide), dif_pos (show (1 : Fin S4096x4096.rank) ∈ dot_S256x4096_S4096x4096_S256x4096_1_0_0_1_n_n.rhsNonContracting by decide)]
  rfl

/-- The body's product into the zero accumulator, at `(r, o)`: the sum over `k` of left `(r, k)` times right `(k, o)`. -/
theorem mm_apply (l : FVec Ideal S256x4096 .bf16) (w : FVec Ideal S4096x4096 .bf16) (r : Fin 256) (o : Fin 4096) :
    matmul dot_S256x4096_S4096x4096_S256x4096_1_0_0_1_n_n none l w (constant S256x4096 .f32 0x00000000#32) (ix2 r o)
      = ∑ k : Fin 4096, l (ix2 r k) * w (ix2 k o) := by
  simp only [matmul]
  rw [Ideal.matmul_constant_zero_apply, ← Equiv.sum_comp (ValueIdx.contrEquiv1 dot_S256x4096_S4096x4096_S256x4096_1_0_0_1_n_n 4096 rfl rfl).symm]
  refine Finset.sum_congr rfl fun k _ => ?_
  have hk := ValueIdx.contrEquiv1_symm_val dot_S256x4096_S4096x4096_S256x4096_1_0_0_1_n_n 4096 rfl rfl k
  have el : dot_S256x4096_S4096x4096_S256x4096_1_0_0_1_n_n.lhsIdx (ix2 r o) ((ValueIdx.contrEquiv1 dot_S256x4096_S4096x4096_S256x4096_1_0_0_1_n_n 4096 rfl rfl).symm k) = ix2 r k := funext fun a => Fin.ext (by
    match a with
    | ⟨0, _⟩ => exact lhs_mm_0 _ _
    | ⟨1, _⟩ => exact (lhs_mm_1 _ _).trans hk)
  have er : dot_S256x4096_S4096x4096_S256x4096_1_0_0_1_n_n.rhsIdx (ix2 r o) ((ValueIdx.contrEquiv1 dot_S256x4096_S4096x4096_S256x4096_1_0_0_1_n_n 4096 rfl rfl).symm k) = ix2 k o := funext fun a => Fin.ext (by
    match a with
    | ⟨0, _⟩ => exact (rhs_mm_0 _ _).trans hk
    | ⟨1, _⟩ => exact rhs_mm_1 _ _)
  rw [el, er]

/-- The body's stored value at `(r, o)` of its block, from the loaded blocks. -/
theorem pay_apply (x0 : Vec Ideal S256x4096 .f32) (x2 : Vec Ideal S4096x4096 .bf16) (x5 : Vec Ideal S1x4096 .f32) (r : Fin 256) (o : Fin 4096) :
    k1_pay1 (F := Ideal) x0 x2 x5 (ix2 r o) = (∑ k : Fin 4096, x0 (ix2 r k) * x2 (ix2 k o)) + x5 (ix2 (0 : Fin 1) o) := by
  unfold k1_pay1
  rw [shapeCast_self, shapeCast_self, addf_apply, mm_apply, broadcastTo_1b_ab_apply]
  rfl

theorem hz : (![0, 0] : Fin 2 → Nat) = fun _ => 0 := funext fun a => by fin_cases a <;> rfl

/-- The printed index maps over the grid: the activations' and the result's blocks move down the rows with the point,
    the weight and the bias row stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The three arrays the region reads, as it finds them, each at its literal type. -/
abbrev acts (c : Dev nD) : Vec Ideal S8192x4096 .f32 := V c main_arg0
abbrev wts (c : Dev nD) : Vec Ideal S4096x4096 .bf16 := V c main_v1
abbrev brow (c : Dev nD) : Vec Ideal S1x4096 .f32 := V c main_v2

/-- What point `t` writes back is block `t` of the product-plus-bias of the arrays the region finds. -/
theorem flushed_eq (c : Dev nD) (t : Fin cfg1.N) :
    (dat1 V c).flushed 3 t = ((cfg1.win 3).blk t).view.read (Elt Ideal) (linearT (acts V c) (wts V c) (brow V c)) := by
  show (cfg1.win 3).cut (grid1.coords t) ((dat1 V c).after 3 t) = _
  rw [after1_3]
  unfold out1_3
  rw [View.canon_unit_zero hz]
  simp only [View.ld_unit_zero (S := S256x4096) hz, View.ld_unit_zero (S := S4096x4096) hz, View.ld_unit_zero (S := S1x4096) hz]
  obtain ⟨e0, e1, e2, e3, e4, e5, e6, e7⟩ := idx_facts t
  funext j
  obtain ⟨r, o, rfl⟩ : ∃ (r : Fin 256) (o : Fin 4096), j = ix2 r o := ⟨j 0, j 1, eq_ix2 j⟩
  refine (pay_apply (iblk1 V c 0 t) (iblk1 V c 1 t) (iblk1 V c 2 t) r o).trans ?_
  have hx : ∀ k : Fin 4096, ((cfg1.win 0).blk t).view.emb (ix2 r k) = xAt (((cfg1.win 3).blk t).view.emb (ix2 r o)) k := fun k => by
    funext a; apply Fin.ext
    match a with
    | ⟨0, _⟩ => show win1_0.index t (0 : Fin 2) * 256 + 1 * r.val = win1_3.index t (0 : Fin 2) * 256 + 1 * r.val; omega
    | ⟨1, _⟩ => show win1_0.index t (1 : Fin 2) * 4096 + 1 * k.val = k.val; omega
  have hw : ∀ k : Fin 4096, ((cfg1.win 1).blk t).view.emb (ix2 k o) = wtAt (((cfg1.win 3).blk t).view.emb (ix2 r o)) k := fun k => by
    funext a; apply Fin.ext
    match a with
    | ⟨0, _⟩ => show win1_1.index t (0 : Fin 2) * 4096 + 1 * k.val = k.val; omega
    | ⟨1, _⟩ => show win1_1.index t (1 : Fin 2) * 4096 + 1 * o.val = win1_3.index t (1 : Fin 2) * 4096 + 1 * o.val; omega
  have hb : ((cfg1.win 2).blk t).view.emb (ix2 (0 : Fin 1) o) = brAt (((cfg1.win 3).blk t).view.emb (ix2 r o)) := by
    funext a; apply Fin.ext
    match a with
    | ⟨0, _⟩ => show win1_2.index t (0 : Fin 2) * 1 + 1 * 0 = 0; omega
    | ⟨1, _⟩ => show win1_2.index t (1 : Fin 2) * 4096 + 1 * o.val = win1_3.index t (1 : Fin 2) * 4096 + 1 * o.val; omega
  show (∑ k : Fin 4096, acts V c (((cfg1.win 0).blk t).view.emb (ix2 r k)) * wts V c (((cfg1.win 1).blk t).view.emb (ix2 k o)))
      + brow V c (((cfg1.win 2).blk t).view.emb (ix2 (0 : Fin 1) o))
    = (∑ k : Fin 4096, acts V c (xAt (((cfg1.win 3).blk t).view.emb (ix2 r o)) k) * wts V c (wtAt (((cfg1.win 3).blk t).view.emb (ix2 r o)) k))
      + brow V c (brAt (((cfg1.win 3).blk t).view.emb (ix2 r o)))
  rw [hb]
  exact congrArg (· + _) (Finset.sum_congr rfl fun k _ => by rw [hx k, hw k])

/-- An index of the result is in point `t`'s block iff each coordinate is in the block's range on its axis. -/
theorem mem_blk (t : Fin cfg1.N) (i : S8192x4096.Idx) :
    i ∈ ((cfg1.win 3).blk t).view.set ↔ ∀ a : Fin 2, win1_3.index t a * S256x4096.size a ≤ (i a).val ∧ (i a).val < win1_3.index t a * S256x4096.size a + S256x4096.size a := by
  show i ∈ ((View.whole main_v3).slice (win1_3.rect t)).set ↔ _
  rw [View.set_slice_whole, Rect.mem_set_unit]
  exact Iff.rfl

/-- Row `r` of the result lies in the block of point `r / 256`. -/
theorem cover (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have hN : (i 0).val / 256 < cfg1.N := by rw [show cfg1.N = 32 from N_1]; omega
  obtain ⟨-, -, -, -, -, -, e6, e7⟩ := idx_facts ⟨(i 0).val / 256, hN⟩
  have e6' : win1_3.index ⟨(i 0).val / 256, hN⟩ (0 : Fin 2) = (i 0).val / 256 := e6
  refine ⟨⟨(i 0).val / 256, hN⟩, flush1_3 _, ?_⟩
  rw [mem_blk]
  intro a
  match a with
  | ⟨0, _⟩ => show win1_3.index _ (0 : Fin 2) * 256 ≤ (i 0).val ∧ (i 0).val < win1_3.index _ (0 : Fin 2) * 256 + 256; omega
  | ⟨1, _⟩ => show win1_3.index _ (1 : Fin 2) * 4096 ≤ (i 1).val ∧ (i 1).val < win1_3.index _ (1 : Fin 2) * 4096 + 4096; omega

/-- After the region its result array is the product-plus-bias of the arrays the region found. -/
theorem final (c : Dev nD) : (dat1 V c).arrAt 3 cfg1.N = linearT (acts V c) (wts V c) (brow V c) :=
  (dat1 V c).arrAt_eq_of_cover 3 _ (fun t _ => flushed_eq V c t) cover

end Cert.KernelIdeal.Linear

end
-- ==== Proof.Entry.lean ====
/-
  What each region finds in the arrays it reads, traced back to the launch.

  The host line before the first region widens the mask bits to words; nothing writes the weight. So the first region
  finds the weight as launched and the mask as words. The host line between the regions reshapes the bias to one row;
  the activations are written by nothing, and the first region's result is written by nothing after that region. So
  the second region finds the activations as launched, the first region's result as that region left it, and the bias
  as a `1 × 4096` row.
-/
import proofs.«401418_j21466246545932_3_alg».proof.Proof.Gen.KernelIdeal.Frame
import Idealize.ShloMosaic.Lib.StableHlo.Run
import Idealize.ShloMosaic.Lib.ValueLayout

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first region finds the weight as launched. -/
theorem first_weight (c : Dev nD) : V1 m ρ c main_arg1 = m ((c : Thread nD τ).loc main_arg1) := by
  show StableHlo.after hostOps0 (W0 m ρ c) (Proc.devRef .tc main_arg1) = _
  after_results

/-- The first region finds the mask widened to words. -/
theorem first_mask (c : Dev nD) :
    (V1 m ρ c main_v0 : Vec Ideal S4096x4096 .i32) = extui 32 (m ((c : Thread nD τ).loc main_arg2) : Vec Ideal S4096x4096 .i1) natLt_1_32 := by
  show StableHlo.after hostOps0 (W0 m ρ c) (Proc.devRef .tc main_v0) = _
  after_results

/-- The second region finds the activations as launched. -/
theorem second_acts (c : Dev nD) : V3 m ρ c main_arg0 = m ((c : Thread nD τ).loc main_arg0) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results

/-- The second region finds the first region's result as that region left it. -/
theorem second_weight (c : Dev nD) : V3 m ρ c main_v1 = (dat0 (V1 m ρ) c).arrAt 2 cfg0.N := by
  show StableHlo.after hostOps1 (W2 m ρ c) (Proc.devRef .tc main_v1) = _
  after_results
  exact W2_arr m ρ c 2

/-- The second region finds the bias as one row: entry `(0, o)` is the launched bias at `o`. -/
theorem second_bias (c : Dev nD) :
    (V3 m ρ c main_v2 : Vec Ideal S1x4096 .f32) = shapeCast S1x4096 (m ((c : Thread nD τ).loc main_arg3) : Vec Ideal S4096 .f32) shapeCasts_S4096_S1x4096 := by
  show StableHlo.after hostOps1 (W2 m ρ c) (Proc.devRef .tc main_v2) = _
  after_results
  rw [W2_of_ne m ρ c main_arg3 (by decide)]
  show (fun i => shapeCast S1x4096 (StableHlo.after hostOps0 (W0 m ρ c) (Proc.devRef .tc main_arg3)) shapeCasts_S4096_S1x4096 i) = _
  after_results

end Cert.KernelIdeal.Entry

end
-- ==== Proof.KernelValue.lean ====
/-
  The kernel's two regions composed are the masked linear layer.

  The second region multiplies the activations by whatever `4096 × 4096` array it finds, laid out input feature × output
  feature, and adds the bias row; the first region has left there the transposed choice "weight where the mask word is
  nonzero, else zero". Read at `(t, o)` the composition sums `X[t, k] · choose(m[o, k], W[o, k], 0)` over `k` and adds
  `b[o]`; choosing by the bit is multiplying by it, so this is the masked linear layer.
-/
import proofs.«401418_j21466246545932_3_alg».proof.Proof.Spec
import proofs.«401418_j21466246545932_3_alg».proof.Proof.Prepass
import proofs.«401418_j21466246545932_3_alg».proof.Proof.Linear
import proofs.«401418_j21466246545932_3_alg».proof.Proof.Entry
import proofs.«401418_j21466246545932_3_alg».proof.Proof.KernelRun

set_option maxRecDepth 16384

noncomputable section

namespace Cert.KernelIdeal.Whole

open Cert.KernelIdeal Cert.KernelIdeal.Gen Cert.MaskedLinear
open Idealize.ShloMosaic Idealize.ShloMosaic.TcCoe Idealize.SL.Sem Idealize.ShloMosaic.ValueIdx

/-- The transposed-weight entry the product reads, transposed back, is the weight entry `(o, k)`. -/
theorem tr_wtAt (i : S8192x4096.Idx) (k : Fin 4096) : Prepass.tr (Linear.wtAt i k) = wAt i k :=
  funext fun a => Fin.ext (by match a with | ⟨0, _⟩ => rfl | ⟨1, _⟩ => rfl)
theorem xAt_eq (i : S8192x4096.Idx) (k : Fin 4096) : Linear.xAt i k = xAt i k :=
  funext fun a => Fin.ext (by match a with | ⟨0, _⟩ => rfl | ⟨1, _⟩ => rfl)
theorem brAt_eq (i : S8192x4096.Idx) : Linear.brAt i = ix2 (0 : Fin 1) (⟨(i 1).val, (i 1).isLt⟩ : Fin 4096) :=
  funext fun a => Fin.ext (by match a with | ⟨0, _⟩ => rfl | ⟨1, _⟩ => rfl)
theorem bAt_eq (i : S8192x4096.Idx) : bAt i = ix1 (⟨(i 1).val, (i 1).isLt⟩ : Fin 4096) :=
  funext fun a => Fin.ext (by match a with | ⟨0, _⟩ => rfl)

/-- The product with the masked, transposed weight plus the bias row is the masked linear layer. -/
theorem linearT_maskedT (X : Vec Ideal S8192x4096 .f32) (W : Vec Ideal S4096x4096 .f32) (M : Vec Ideal S4096x4096 .i1) (b : Vec Ideal S4096 .f32) :
    Linear.linearT X (Prepass.maskedT W (extui 32 M natLt_1_32)) (shapeCast S1x4096 b shapeCasts_S4096_S1x4096)
      = maskedLinear X W M b := by
  funext i
  unfold Linear.linearT maskedLinear
  rw [brAt_eq, shapeCast_a_1a_apply, bAt_eq]
  refine congrArg (· + _) (Finset.sum_congr rfl fun k _ => ?_)
  rw [xAt_eq, keep_eq_select]
  unfold Prepass.maskedT
  rw [tr_wtAt]
  rfl

variable (m : (ℓ : Loc nD τ sig) → Buf (Elt Ideal) ℓ) (ρ : Dev nD → PrngReg)

/-- After the run the result array is the masked linear layer of the launched arguments. -/
theorem result_eq (c : Dev nD) :
    (dat1 (V3 m ρ) c).arrAt 3 cfg1.N
      = maskedLinear (m ((c : Thread nD τ).loc main_arg0)) (m ((c : Thread nD τ).loc main_arg1)) (m ((c : Thread nD τ).loc main_arg2)) (m ((c : Thread nD τ).loc main_arg3)) := by
  rw [Linear.final (V3 m ρ) c]
  have h0 : Linear.acts (V3 m ρ) c = m ((c : Thread nD τ).loc main_arg0) := Entry.second_acts m ρ c
  have h1 : Linear.wts (V3 m ρ) c
      = Prepass.maskedT (m ((c : Thread nD τ).loc main_arg1)) (extui 32 (m ((c : Thread nD τ).loc main_arg2) : Vec Ideal S4096x4096 .i1) natLt_1_32) := by
    show V3 m ρ c main_v1 = _
    rw [Entry.second_weight, Prepass.final (V1 m ρ) c, Entry.first_weight, Entry.first_mask]
  have h2 : Linear.brow (V3 m ρ) c = shapeCast S1x4096 (m ((c : Thread nD τ).loc main_arg3) : Vec Ideal S4096 .f32) shapeCasts_S4096_S1x4096 :=
    Entry.second_bias m ρ c
  rw [h0, h1, h2]
  exact linearT_maskedT _ _ _ _

/-- The kernel's run with its result named: every weakly fair execution terminates with the result array at the masked
    linear layer of the launched arguments and the arguments unchanged. -/
theorem run : θ_run defs (onTc (τ := τ) (main (F := Ideal))) ⟨m, fun _ => 0, ρ⟩ (fun r => ∀ c : Dev nD,
      r.2.mem ((c.tc : Thread nD τ).loc main_v3)
        = maskedLinear (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Run.run_main m ρ)

end Cert.KernelIdeal.Whole

end
-- ==== Proof.lean ====
/-
  The certificate of a linear layer with a fixed sparsity mask on its weight.

  Both programs compute, for a token row `t` and an output feature `o`,
      y[t, o] = (∑ k, X[t, k] · (W[o, k] · m[o, k])) + b[o],      m[o, k] ∈ {0, 1}.
  The reference multiplies the weight by the mask read as numbers, contracts the activations with it and adds the
  bias. The kernel runs two pipelined regions: the first keeps a weight where its mask bit is set and puts zero
  elsewhere, and stores the result transposed; the second multiplies each block of 256 token rows by that whole array
  and adds the bias row. On the extended reals a change of float format is the identity, a matrix product into a zero
  accumulator is the plain sum, and `w · 1 = w`, `w · 0 = 0` for every `w`, so the two results agree entry by entry
  (Proof/Spec.lean states the function; Proof/RefSide.lean reads the reference as it; Proof/Prepass.lean,
  Proof/Linear.lean, Proof/Entry.lean and Proof/KernelValue.lean read the kernel's run as it).
  The three frames: each kernel program's is its launch over the two regions; the reference's is its run with the
  result dropped. The idealization rewrote no operation, so there is nothing to preserve.
-/
import proofs.«401418_j21466246545932_3_alg».proof.Defs
import proofs.«401418_j21466246545932_3_alg».proof.Proof.Gen.Kernel
import proofs.«401418_j21466246545932_3_alg».proof.Proof.Gen.Kernel.Skeleton
import proofs.«401418_j21466246545932_3_alg».proof.Proof.Gen.Kernel.Launch
import proofs.«401418_j21466246545932_3_alg».proof.Proof.Gen.Kernel.Points
import proofs.«401418_j21466246545932_3_alg».proof.Proof.Gen.Kernel.Frame
import proofs.«401418_j21466246545932_3_alg».proof.Proof.Gen.KernelIdeal
import proofs.«401418_j21466246545932_3_alg».proof.Proof.Gen.KernelIdeal.Skeleton
import proofs.«401418_j21466246545932_3_alg».proof.Proof.Gen.KernelIdeal.Launch
import proofs.«401418_j21466246545932_3_alg».proof.Proof.Gen.KernelIdeal.Points
import proofs.«401418_j21466246545932_3_alg».proof.Proof.Gen.KernelIdeal.Frame
import proofs.«401418_j21466246545932_3_alg».proof.Proof.Gen.ReferenceIdeal
import proofs.«401418_j21466246545932_3_alg».proof.Proof.Gen.ReferenceIdeal.Run
import proofs.«401418_j21466246545932_3_alg».proof.Proof.Gen.ReferenceIdeal.Read
import proofs.«401418_j21466246545932_3_alg».proof.Proof.Gen.Pre_finite_inputs
import proofs.«401418_j21466246545932_3_alg».proof.Proof.RefSide
import proofs.«401418_j21466246545932_3_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result at the masked linear layer of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
